-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S1024x4096 : Shape := ⟨2, ![1024, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S8192x1024 .f32) (main_arg1 : FVec F S4096x1024 .f32) (main_arg2 : FVec F S1024x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x4096, .f32⟩
  | .hbm, ⟨3, _⟩ => ⟨S1024x4096, .f32⟩
  | .hbm, ⟨4, _⟩ => ⟨S1024x4096, .bf16⟩
  | .hbm, ⟨5, _⟩ => ⟨S4096x1024, .f32⟩
  | .hbm, ⟨6, _⟩ => ⟨S4096x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v6 : BitVec 32 := Scalar.muli c0_i32 c1024_i32
  v6
def k0_off1 (c0_i32 : BitVec 32) : Fin 2 → Nat :=
  let c0_3 : Index := 0#32
  let c1024_i32 : BitVec 32 := 1024#32
  let v6 : BitVec 32 := Scalar.muli c0_i32 c1024_i32
  let v7 : BitVec 32 := v6
  let v8 : Index := Scalar.indexCast v7
  ![0, v8.toNat]
def k0_off2 (c0_i32 : BitVec 32) : Fin 2 → Nat :=
  let c1024_i32 : BitVec 32 := 1024#32
  let v6 : BitVec 32 := Scalar.muli c0_i32 c1024_i32
  let v7 : BitVec 32 := v6
  let v16 : Index := Scalar.indexCast v7
  let c0_6 : Index := 0#32
  ![v16.toNat, 0]
def k0_mult2 : BitVec 32 :=
  let c1_i32 : BitVec 32 := 1#32
  let c1024_i32_12 : BitVec 32 := 1024#32
  let v25 : BitVec 32 := Scalar.muli c1_i32 c1024_i32_12
  v25
def k0_mult3 : BitVec 32 :=
  let c2_i32 : BitVec 32 := 2#32
  let c1024_i32_22 : BitVec 32 := 1024#32
  let v44 : BitVec 32 := Scalar.muli c2_i32 c1024_i32_22
  v44
def k0_mult4 : BitVec 32 :=
  let c3_i32 : BitVec 32 := 3#32
  let c1024_i32_32 : BitVec 32 := 1024#32
  let v63 : BitVec 32 := Scalar.muli c3_i32 c1024_i32_32
  v63
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S1024x1024 : 0 < S1024x1024.numel
  shapeCasts_S1024x1024_S1024x1024 : S1024x1024.ShapeCasts S1024x1024
  dot_S512x1024_S1024x1024_S512x1024_1_0_0_1_n_n_wf : DotDims.WF S512x1024 S1024x1024 S512x1024 [1] [0] [0] [1] [] []
  hrank0 : 0 < grid0.rank
  k0_mult1_dvd : 1024 ∣ k0_mult1.toNat
  k0_off1_inb : ∀ (r : Fin 4), ∀ a, (k0_off1 (BitVec.ofNat 32 r.val)) a + S1024x1024.size a ≤ S1024x4096.size a
  k0_off2_inb : ∀ (r : Fin 4), ∀ a, (k0_off2 (BitVec.ofNat 32 r.val)) a + S1024x1024.size a ≤ S4096x1024.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x1024_S4096x1024_S8192x4096_1_1_0_0_n_n_wf : DotDims.WF S8192x1024 S4096x1024 S8192x4096 [1] [1] [0] [0] [] []
  dot_S8192x4096_S1024x4096_S8192x1024_1_1_0_0_n_n_wf : DotDims.WF S8192x4096 S1024x4096 S8192x1024 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf
def dot_S8192x4096_S1024x4096_S8192x1024_1_1_0_0_n_n : DotDims S8192x4096 S1024x4096 S8192x1024 where
  lhsContracting := [1]
  rhsContracting := [1]
  lhsNonContracting := [0]
  rhsNonContracting := [0]
  lhsBatch := []
  rhsBatch := []
  wf := dot_S8192x4096_S1024x4096_S8192x1024_1_1_0_0_n_n_wf

class Facts : Prop extends Facts₀ where

variable [Facts]
-- ==== Proof.Spec.lean ====
/-
  The function both programs compute, and the one law that joins their two arrangements.

  For `x : [8192, 1024]`, `W_fc : [4096, 1024]`, `W_proj : [1024, 4096]` over the extended reals,
    `hid t h    = (max (∑ k, x (t, k) * W_fc (h, k)) 0)²`      (one hidden unit: a row product, clipped below at zero, squared)
    `out (t, d) = ∑ h, hid t h * W_proj (d, h)`.
  One side sums over all 4096 hidden units at once; the other sums them in four runs of 1024 consecutive units, each
  run's sum added in turn onto zero. The two agree because a sum over `Fin 4096` is the sum of its four quarter sums:
  addition on the extended reals is commutative and associative, so nothing here needs the entries to be finite.
-/
import Idealize.ShloMosaic.PureOps.Ideal
import Idealize.ShloMosaic.Lib.ValueIdx
import Mathlib.Algebra.BigOperators.Fin

noncomputable section

namespace Cert.ReluSqMlp

open Idealize.ShloMosaic Idealize.ShloMosaic.ValueIdx
open scoped BigOperators

/-- The row product feeding hidden unit `h` at row `t`: `∑ k, x (t, k) * W_fc (h, k)`. -/
def pre (x : (⟨2, ![8192, 1024]⟩ : Shape).Idx → EReal) (wfc : (⟨2, ![4096, 1024]⟩ : Shape).Idx → EReal)
    (t : Fin 8192) (h : Fin 4096) : EReal :=
  ∑ k : Fin 1024, x (ix2 t k) * wfc (ix2 h k)

/-- Hidden unit `h` at row `t`: the row product clipped below at zero, squared. -/
def hid (x : (⟨2, ![8192, 1024]⟩ : Shape).Idx → EReal) (wfc : (⟨2, ![4096, 1024]⟩ : Shape).Idx → EReal)
    (t : Fin 8192) (h : Fin 4096) : EReal :=
  max (pre x wfc t h) 0 * max (pre x wfc t h) 0

/-- The result, index by index: `out (t, d) = ∑ h, hid t h * W_proj (d, h)`. -/
def out (x : (⟨2, ![8192, 1024]⟩ : Shape).Idx → EReal) (wfc : (⟨2, ![4096, 1024]⟩ : Shape).Idx → EReal)
    (wproj : (⟨2, ![1024, 4096]⟩ : Shape).Idx → EReal) : (⟨2, ![8192, 1024]⟩ : Shape).Idx → EReal :=
  fun i => ∑ h : Fin 4096, hid x wfc (i 0) h * wproj (ix2 (i 1) h)

/-- The result at row `t`, column `d`. -/
theorem out_apply (x : (⟨2, ![8192, 1024]⟩ : Shape).Idx → EReal) (wfc : (⟨2, ![4096, 1024]⟩ : Shape).Idx → EReal)
    (wproj : (⟨2, ![1024, 4096]⟩ : Shape).Idx → EReal) (t : Fin 8192) (d : Fin 1024) :
    out x wfc wproj (ix2 t d) = ∑ h : Fin 4096, hid x wfc t h * wproj (ix2 d h) := rfl

/-- Hidden unit number `j` of run `c`: the runs are the four consecutive quarters of `Fin 4096`. -/
def unit (c : Fin 4) (j : Fin 1024) : Fin 4096 := ⟨c.val * 1024 + j.val, by omega⟩

@[simp] theorem unit_val (c : Fin 4) (j : Fin 1024) : (unit c j).val = c.val * 1024 + j.val := rfl

/-- Run and place within the run determine the hidden unit, and every hidden unit arises once. -/
def unitEquiv : Fin 4 × Fin 1024 ≃ Fin 4096 where
  toFun cj := unit cj.1 cj.2
  invFun h := (⟨h.val / 1024, by omega⟩, ⟨h.val % 1024, by omega⟩)
  left_inv cj := by
    obtain ⟨c, j⟩ := cj
    refine Prod.ext (Fin.ext ?_) (Fin.ext ?_)
    · show (c.val * 1024 + j.val) / 1024 = c.val
      omega
    · show (c.val * 1024 + j.val) % 1024 = j.val
      omega
  right_inv h := Fin.ext (by
    show h.val / 1024 * 1024 + h.val % 1024 = h.val
    omega)

/-- A sum over the 4096 hidden units is zero plus its four quarter sums, taken in order. -/
theorem sum_quarters (f : Fin 4096 → EReal) :
    ∑ h : Fin 4096, f h
      = 0 + (∑ j : Fin 1024, f (unit 0 j)) + (∑ j : Fin 1024, f (unit 1 j)) + (∑ j : Fin 1024, f (unit 2 j))
          + (∑ j : Fin 1024, f (unit 3 j)) := by
  rw [← unitEquiv.sum_comp f, Fintype.sum_prod_type, Fin.sum_univ_four, zero_add]
  rfl

end Cert.ReluSqMlp

end
-- ==== Proof.RefSpec.lean ====
/-
  The reference computes the specification.

  Its four stages — the row products `x · W_fcᵀ`, the clip below at zero, the square, the product with `W_projᵀ` —
  read at an index are, in order: `∑ k, x (t, k) * W_fc (h, k)`; its maximum with zero; that times itself; and
  `∑ h, (…) * W_proj (d, h)`. That is `Cert.ReluSqMlp.out` term for term: only the index functions of the two
  contractions have to be identified with pairs of coordinates, and the zero word with the number zero.
-/
import proofs.«428644_j58179626991686_3_alg».proof.Proof.Gen.ReferenceIdeal.Read
import proofs.«428644_j58179626991686_3_alg».proof.Proof.Spec

noncomputable section

namespace Cert.ReluSqMlp.Ref

open Cert.ReferenceIdeal Cert.ReferenceIdeal.Read Idealize.ShloMosaic Idealize.ShloMosaic.ValueIdx
open scoped BigOperators

/-- The first contraction, for the entry at (row `t`, hidden unit `h`), reads `x` at `(t, k)`. -/
theorem lidx_pre (t : Fin 8192) (h : Fin 4096) (k : Fin 1024) : lidx_main_v0 (ix2 t h) k = ix2 t k :=
  funext fun a => Fin.ext (by match a with | ⟨0, _⟩ => rfl | ⟨1, _⟩ => rfl)

/-- … and `W_fc` at `(h, k)`. -/
theorem ridx_pre (t : Fin 8192) (h : Fin 4096) (k : Fin 1024) : ridx_main_v0 (ix2 t h) k = ix2 h k :=
  funext fun a => Fin.ext (by match a with | ⟨0, _⟩ => rfl | ⟨1, _⟩ => rfl)

/-- The second contraction, for the entry at (row `t`, column `d`), reads the hidden layer at `(t, h)`. -/
theorem lidx_out (t : Fin 8192) (d : Fin 1024) (h : Fin 4096) : lidx_main_v3 (ix2 t d) h = ix2 t h :=
  funext fun a => Fin.ext (by match a with | ⟨0, _⟩ => rfl | ⟨1, _⟩ => rfl)

/-- … and `W_proj` at `(d, h)`. -/
theorem ridx_out (t : Fin 8192) (d : Fin 1024) (h : Fin 4096) : ridx_main_v3 (ix2 t d) h = ix2 d h :=
  funext fun a => Fin.ext (by match a with | ⟨0, _⟩ => rfl | ⟨1, _⟩ => rfl)

/-- The hidden layer at (t, h): the row product clipped below at zero, squared. -/
theorem hidden_apply (x : (⟨S8192x1024, .f32⟩ : BufTy).Contents (Elt Ideal)) (wfc : (⟨S4096x1024, .f32⟩ : BufTy).Contents (Elt Ideal))
    (t : Fin 8192) (h : Fin 4096) :
    val_main_v2 (F := Ideal) x wfc (ix2 t h) = hid x wfc t h := by
  rw [val_main_v2_apply, val_main_v1_apply, val_main_v0_apply, val_main_call0_v0_apply, val_main_call0_cst_apply]
  simp only [lidx_pre, ridx_pre, Ideal.mulf_def, Ideal.maximumf_def, Ideal.ofBits_def, Ideal.ofBits_zero_f32]
  rfl

/-- The reference's result is the specification's, index by index. -/
theorem result_eq (x : (⟨S8192x1024, .f32⟩ : BufTy).Contents (Elt Ideal)) (wfc : (⟨S4096x1024, .f32⟩ : BufTy).Contents (Elt Ideal))
    (wproj : (⟨S1024x4096, .f32⟩ : BufTy).Contents (Elt Ideal)) :
    val_main_v3 (F := Ideal) x wfc wproj = out x wfc wproj := by
  funext i
  obtain ⟨t, d, rfl⟩ : ∃ (t : Fin 8192) (d : Fin 1024), i = ix2 t d := ⟨i 0, i 1, eq_ix2 i⟩
  rw [val_main_v3_apply, out_apply]
  refine Finset.sum_congr rfl fun h _ => ?_
  rw [lidx_out, ridx_out, hidden_apply]

end Cert.ReluSqMlp.Ref

end
-- ==== Proof.Body.lean ====
/-
  What one grid point leaves in the output block, as a value.

  The body clears its accumulator, then four times over — once per run of 1024 consecutive hidden units — multiplies
  the row block of `x` by that run's columns of `W_fcᵀ`, clips at zero, squares, multiplies by that run's rows of
  `W_projᵀ` and adds the product onto the accumulator; the output block is the accumulator read back at the end.
  Every read-back of the accumulator sees the store just before it, because each store writes the whole block. So
  the output block is the fourth of these partial sums.
-/
import proofs.«428644_j58179626991686_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.ReluSqMlp.Kern

open Cert.KernelIdeal Cert.KernelIdeal.Gen

variable {F : FTy → Type} [FloatOps F]

theorem hz : (![0, 0] : Fin 2 → Nat) = fun _ => 0 := funext fun a => by fin_cases a <;> rfl

/-- Columns `[o, o + 1024)` of the staged `[1024, 4096]` block of `W_fcᵀ`: one run's weights into the hidden layer. -/
abbrev fcCols (x1 : Vec F S1024x4096 .bf16) (o : ℕ)
    (inb : ∀ a, (![0, o] : Fin 2 → ℕ) a + S1024x1024.size a ≤ S1024x4096.size a) : Vec F S1024x1024 .bf16 :=
  View.ld x1 (Rect.unit ![0, o] S1024x1024.size inb)

/-- Rows `[o, o + 1024)` of the staged `[4096, 1024]` block of `W_projᵀ`: the same run's weights out of it. -/
abbrev projRows (x2 : Vec F S4096x1024 .bf16) (o : ℕ)
    (inb : ∀ a, (![o, 0] : Fin 2 → ℕ) a + S1024x1024.size a ≤ S4096x1024.size a) : Vec F S1024x1024 .bf16 :=
  View.ld x2 (Rect.unit ![o, 0] S1024x1024.size inb)

/-- The accumulator after the first run of hidden units: zero plus the first run's product. -/
def acc1 (x0 : Vec F S512x1024 .f32) (x1 : Vec F S1024x4096 .bf16) (x2 : Vec F S4096x1024 .bf16) : Vec F S512x1024 .f32 :=
  k0_pay4 x0 (fcCols x1 0 (by decide)) (projRows x2 0 (by decide)) k0_pay3

/-- … after the second. -/
def acc2 (x0 : Vec F S512x1024 .f32) (x1 : Vec F S1024x4096 .bf16) (x2 : Vec F S4096x1024 .bf16) : Vec F S512x1024 .f32 :=
  k0_pay6 (k0_pay5 x0 (fcCols x1 1024 (by decide))) (projRows x2 1024 (by decide)) (acc1 x0 x1 x2)

/-- … after the third. -/
def acc3 (x0 : Vec F S512x1024 .f32) (x1 : Vec F S1024x4096 .bf16) (x2 : Vec F S4096x1024 .bf16) : Vec F S512x1024 .f32 :=
  k0_pay7 (k0_pay2 x0) (fcCols x1 2048 (by decide)) (projRows x2 2048 (by decide)) (acc2 x0 x1 x2)

/-- … after the fourth and last: what the body stores to the output block. -/
def acc4 (x0 : Vec F S512x1024 .f32) (x1 : Vec F S1024x4096 .bf16) (x2 : Vec F S4096x1024 .bf16) : Vec F S512x1024 .f32 :=
  k0_pay1 (k0_pay8 (k0_pay2 x0) (fcCols x1 3072 (by decide))) (projRows x2 3072 (by decide)) (acc3 x0 x1 x2)

/-- The output block after the body, whatever the staging memrefs: the fourth partial sum of the input blocks. The
    one store to the output covers it; its payload is the accumulator read back, and each read-back of the
    accumulator is through the rectangle of the newest store to it, so reads that store's payload. -/
theorem out_eq (c : Dev nD) (i : grid0.Coords) (arg1 : Memref sig .tc .vmem S512x1024 .f32) (harg1 : arg1.IsWhole)
    (arg2 : Memref sig .tc .vmem S1024x4096 .bf16) (harg2 : arg2.IsWhole) (arg3 : Memref sig .tc .vmem S4096x1024 .bf16) (harg3 : arg3.IsWhole)
    (arg4 : Memref sig .tc .vmem S512x1024 .f32) (harg4 : arg4.IsWhole) (arg5 : Memref sig .tc .vmem S512x1024 .f32) (harg5 : arg5.IsWhole)
    (x0 : Vec F S512x1024 .f32) (x1 : Vec F S1024x4096 .bf16) (x2 : Vec F S4096x1024 .bf16) :
    out0_A_3 c i arg1 harg1 arg2 harg2 arg3 harg3 arg4 harg4 arg5 harg5 x0 x1 x2 = acc4 x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz]
  simp only [View.readCov_cons_toLoadRect, View.readAt_eq_ld, harg1.read_unread, harg2.read_unread, harg3.read_unread,
    View.ld_unit_zero (S := S512x1024) hz]
  rfl

end Cert.ReluSqMlp.Kern

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.BlockValue.lean ====
/-
  The output block at an index.

  At the exact instance every change of float format is the identity and each of the body's eight matrix products,
  into a zero accumulator, is the plain sum `∑ k, l (p, k) * r (k, j)`. So one run of 1024 hidden units adds
  `∑ j, (max (∑ k, xb (p, k) * w1 (k, j)) 0)² * w2 (j, q)` to the accumulator's entry `(p, q)`, and the four runs,
  starting from zero and taken over the four quarters of the weights' hidden axis, add up to the sum over all 4096
  hidden units (`Cert.ReluSqMlp.sum_quarters`).
-/
import proofs.«428644_j58179626991686_3_alg».proof.Proof.Body
import proofs.«428644_j58179626991686_3_alg».proof.Proof.LibRowOps
import proofs.«428644_j58179626991686_3_alg».proof.Proof.Spec

set_option maxRecDepth 16384

noncomputable section

open Idealize.ShloMosaic Idealize.ShloMosaic.TcCoe Idealize.ShloMosaic.ValueIdx
open scoped BigOperators

namespace Cert.ReluSqMlp.Kern

open Cert.KernelIdeal Cert.KernelIdeal.Gen

/-- The body's products are all of the plain kind: `[512, 1024] × [1024, 1024]`, contracting the left operand's
    columns with the right operand's rows. -/
theorem dims_plain : dot_S512x1024_S1024x1024_S512x1024_1_0_0_1_n_n = DotDims.plain 512 1024 1024 := rfl

/-- One run's hidden unit `j` at block row `p`: the row product with column `j` of the run's first weights,
    clipped below at zero, squared. -/
def hidRun (xb : S512x1024.Idx → EReal) (w1 : S1024x1024.Idx → EReal) (p : Fin 512) (j : Fin 1024) : EReal :=
  max (∑ k : Fin 1024, xb (ix2 p k) * w1 (ix2 k j)) 0 * max (∑ k : Fin 1024, xb (ix2 p k) * w1 (ix2 k j)) 0

/-- One run's update of the accumulator, read at `(p, q)`. -/
theorem run_apply (xb : FVec Ideal S512x1024 .bf16) (w1 w2 : FVec Ideal S1024x1024 .bf16) (acc : FVec Ideal S512x1024 .f32)
    (p : Fin 512) (q : Fin 1024) :
    addf acc (matmul dot_S512x1024_S1024x1024_S512x1024_1_0_0_1_n_n none
      (mulf
        (truncf .bf16 (maximumf (matmul dot_S512x1024_S1024x1024_S512x1024_1_0_0_1_n_n none xb w1 (constant S512x1024 .f32 0x00000000#32))
          (broadcast S512x1024 (Scalar.ofBits .f32 0x00000000#32))) bitsLt_bf16_f32)
        (truncf .bf16 (maximumf (matmul dot_S512x1024_S1024x1024_S512x1024_1_0_0_1_n_n none xb w1 (constant S512x1024 .f32 0x00000000#32))
          (broadcast S512x1024 (Scalar.ofBits .f32 0x00000000#32))) bitsLt_bf16_f32))
      w2 (constant S512x1024 .f32 0x00000000#32)) (ix2 p q)
      = acc (ix2 p q) + ∑ j : Fin 1024, hidRun xb w1 p j * w2 (ix2 j q) := by
  show acc (ix2 p q) + matmul dot_S512x1024_S1024x1024_S512x1024_1_0_0_1_n_n none _ w2 (constant S512x1024 .f32 0x00000000#32) (ix2 p q) = _
  rw [Cert.LibRowOps.matmul_plain_apply _ dims_plain]
  refine congrArg (acc (ix2 p q) + ·) (Finset.sum_congr rfl fun j _ => ?_)
  refine congrArg (· * w2 (ix2 j q)) ?_
  show max (matmul dot_S512x1024_S1024x1024_S512x1024_1_0_0_1_n_n none xb w1 (constant S512x1024 .f32 0x00000000#32) (ix2 p j)) (Ideal.ofBits .f32 0x00000000#32)
      * max (matmul dot_S512x1024_S1024x1024_S512x1024_1_0_0_1_n_n none xb w1 (constant S512x1024 .f32 0x00000000#32) (ix2 p j)) (Ideal.ofBits .f32 0x00000000#32) = _
  rw [Cert.LibRowOps.matmul_plain_apply _ dims_plain, Ideal.ofBits_zero_f32]
  rfl

/-- The cleared accumulator is zero everywhere. -/
theorem pay3_apply (p : Fin 512) (q : Fin 1024) : k0_pay3 (F := Ideal) (ix2 p q) = 0 := by
  unfold k0_pay3
  simp only [shapeCast_self]
  exact Ideal.ofBits_zero_f32

/-- The first run's store. -/
theorem pay4_apply (x0 : Vec Ideal S512x1024 .f32) (v9 v17 : Vec Ideal S1024x1024 .bf16) (v19 : Vec Ideal S512x1024 .f32)
    (p : Fin 512) (q : Fin 1024) :
    k0_pay4 x0 v9 v17 v19 (ix2 p q) = v19 (ix2 p q) + ∑ j : Fin 1024, hidRun x0 v9 p j * v17 (ix2 j q) := by
  unfold k0_pay4 k0_pay2
  simp only [shapeCast_self]
  exact run_apply _ _ _ _ p q

/-- The second run's store. -/
theorem pay6_apply (x0 : Vec Ideal S512x1024 .f32) (v28 v36 : Vec Ideal S1024x1024 .bf16) (v38 : Vec Ideal S512x1024 .f32)
    (p : Fin 512) (q : Fin 1024) :
    k0_pay6 (k0_pay5 x0 v28) v36 v38 (ix2 p q) = v38 (ix2 p q) + ∑ j : Fin 1024, hidRun x0 v28 p j * v36 (ix2 j q) := by
  unfold k0_pay6 k0_pay5 k0_pay2
  simp only [shapeCast_self]
  exact run_apply _ _ _ _ p q

/-- The third run's store. -/
theorem pay7_apply (v1 : FVec Ideal S512x1024 .bf16) (v47 v55 : Vec Ideal S1024x1024 .bf16) (v57 : Vec Ideal S512x1024 .f32)
    (p : Fin 512) (q : Fin 1024) :
    k0_pay7 v1 v47 v55 v57 (ix2 p q) = v57 (ix2 p q) + ∑ j : Fin 1024, hidRun v1 v47 p j * v55 (ix2 j q) := by
  unfold k0_pay7
  simp only [shapeCast_self]
  exact run_apply _ _ _ _ p q

/-- The fourth run's store. -/
theorem pay1_apply (v1 : FVec Ideal S512x1024 .bf16) (v66 v74 : Vec Ideal S1024x1024 .bf16) (v76 : Vec Ideal S512x1024 .f32)
    (p : Fin 512) (q : Fin 1024) :
    k0_pay1 (k0_pay8 v1 v66) v74 v76 (ix2 p q) = v76 (ix2 p q) + ∑ j : Fin 1024, hidRun v1 v66 p j * v74 (ix2 j q) := by
  unfold k0_pay1 k0_pay8
  simp only [shapeCast_self]
  exact run_apply _ _ _ _ p q

/-- Column `j` of the run starting at column `o` of the staged `W_fcᵀ` block is its column `o + j`. -/
theorem fcCols_apply (x1 : Vec Ideal S1024x4096 .bf16) (o : ℕ)
    (inb : ∀ a, (![0, o] : Fin 2 → ℕ) a + S1024x1024.size a ≤ S1024x4096.size a) (ho : o + 1024 ≤ 4096)
    (k j : Fin 1024) : fcCols x1 o inb (ix2 k j) = x1 (ix2 k (⟨o + j.val, by omega⟩ : Fin 4096)) :=
  congrArg x1 (funext fun a => Fin.ext (by
    match a with
    | ⟨0, _⟩ => show 0 + 1 * k.val = k.val; omega
    | ⟨1, _⟩ => show o + 1 * j.val = o + j.val; omega))

/-- Row `j` of the run starting at row `o` of the staged `W_projᵀ` block is its row `o + j`. -/
theorem projRows_apply (x2 : Vec Ideal S4096x1024 .bf16) (o : ℕ)
    (inb : ∀ a, (![o, 0] : Fin 2 → ℕ) a + S1024x1024.size a ≤ S4096x1024.size a) (ho : o + 1024 ≤ 4096)
    (j q : Fin 1024) : projRows x2 o inb (ix2 j q) = x2 (ix2 (⟨o + j.val, by omega⟩ : Fin 4096) q) :=
  congrArg x2 (funext fun a => Fin.ext (by
    match a with
    | ⟨0, _⟩ => show o + 1 * j.val = o + j.val; omega
    | ⟨1, _⟩ => show 0 + 1 * q.val = q.val; omega))

/-- Hidden unit `h` at block row `p`, from the staged blocks: `(max (∑ k, x0 (p, k) * x1 (k, h)) 0)²`. -/
def hidBlk (x0 : S512x1024.Idx → EReal) (x1 : S1024x4096.Idx → EReal) (p : Fin 512) (h : Fin 4096) : EReal :=
  max (∑ k : Fin 1024, x0 (ix2 p k) * x1 (ix2 k h)) 0 * max (∑ k : Fin 1024, x0 (ix2 p k) * x1 (ix2 k h)) 0

/-- One run's term of the sum, in the block's own coordinates. -/
theorem run_term (xb : S512x1024.Idx → EReal) (x1 : Vec Ideal S1024x4096 .bf16) (x2 : Vec Ideal S4096x1024 .bf16)
    (c : Fin 4) (o : ℕ) (hoc : o = c.val * 1024)
    (inb1 : ∀ a, (![0, o] : Fin 2 → ℕ) a + S1024x1024.size a ≤ S1024x4096.size a)
    (inb2 : ∀ a, (![o, 0] : Fin 2 → ℕ) a + S1024x1024.size a ≤ S4096x1024.size a)
    (p : Fin 512) (q j : Fin 1024) :
    hidRun xb (fcCols x1 o inb1) p j * projRows x2 o inb2 (ix2 j q)
      = hidBlk xb x1 p (unit c j) * x2 (ix2 (unit c j) q) := by
  have ho : o + 1024 ≤ 4096 := by have := c.isLt; omega
  have hu : (⟨o + j.val, by omega⟩ : Fin 4096) = unit c j := Fin.ext (by show o + j.val = c.val * 1024 + j.val; omega)
  unfold hidRun hidBlk
  rw [projRows_apply x2 o inb2 ho, hu]
  simp only [fcCols_apply x1 o inb1 ho, hu]

/-- THE OUTPUT BLOCK at `(p, q)`: the sum over all 4096 hidden units. (The last two runs take the row block through
    its change of format, which at the exact instance is the row block itself.) -/
theorem acc4_apply (x0 : Vec Ideal S512x1024 .f32) (x1 : Vec Ideal S1024x4096 .bf16) (x2 : Vec Ideal S4096x1024 .bf16)
    (p : Fin 512) (q : Fin 1024) :
    acc4 x0 x1 x2 (ix2 p q) = ∑ h : Fin 4096, hidBlk x0 x1 p h * x2 (ix2 h q) := by
  rw [sum_quarters]
  unfold acc4 acc3 acc2 acc1
  rw [pay1_apply, pay7_apply, pay6_apply, pay4_apply, pay3_apply]
  simp only [run_term x0 x1 x2 0 0 rfl, run_term x0 x1 x2 1 1024 rfl, run_term (k0_pay2 x0) x1 x2 2 2048 rfl,
    run_term (k0_pay2 x0) x1 x2 3 3072 rfl]
  rfl

end Cert.ReluSqMlp.Kern

end
-- ==== Proof.HostSide.lean ====
/-
  What the region finds in the two weight arrays it stages.

  Before the region the program transposes each weight and changes its float format: window 1's array is `W_fcᵀ`,
  a `[1024, 4096]` array whose entry `(k, h)` is `W_fc (h, k)`, and window 2's array is `W_projᵀ`, a
  `[4096, 1024]` array whose entry `(h, d)` is `W_proj (d, h)`; at the exact instance the change of format does
  nothing. The first argument, `x`, is staged as it was launched.
-/
import proofs.«428644_j58179626991686_3_alg».proof.Proof.Gen.KernelIdeal.Frame
import Idealize.ShloMosaic.Lib.StableHlo.Run
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.ReluSqMlp.Kern

open Cert.KernelIdeal Cert.KernelIdeal.Gen

variable (m : (ℓ : Loc nD τ sig) → Buf (Elt Ideal) ℓ)

/-- Window 1's array as the region finds it: the transposed, re-formatted `W_fc`. -/
theorem V_fcT (c : Dev nD) :
    (V m c main_v1 : S1024x4096.Idx → EReal)
      = truncf (F := Ideal) .bf16 (transpose S1024x4096 [1, 0] (m ((c : Thread nD τ).loc main_arg1) : S4096x1024.Idx → EReal) transposes_S4096x1024_S1024x4096_1_0) bitsLt_bf16_f32 := by
  dsimp only [V, hostOps0]
  after_results

/-- Window 2's array as the region finds it: the transposed, re-formatted `W_proj`. -/
theorem V_projT (c : Dev nD) :
    (V m c main_v3 : S4096x1024.Idx → EReal)
      = truncf (F := Ideal) .bf16 (transpose S4096x1024 [1, 0] (m ((c : Thread nD τ).loc main_arg2) : S1024x4096.Idx → EReal) transposes_S1024x4096_S4096x1024_1_0) bitsLt_bf16_f32 := by
  dsimp only [V, hostOps0]
  after_results

/-- Entry `(k, h)` of window 1's array is `W_fc (h, k)`. -/
theorem fcT_apply (c : Dev nD) (k : Fin 1024) (h : Fin 4096) :
    (V m c main_v1 : S1024x4096.Idx → EReal) (ix2 k h)
      = (m ((c : Thread nD τ).loc main_arg1) : S4096x1024.Idx → EReal) (ix2 h k) := by
  rw [V_fcT]
  show transpose S1024x4096 [1, 0] (m ((c : Thread nD τ).loc main_arg1) : S4096x1024.Idx → EReal) transposes_S4096x1024_S1024x4096_1_0 (ix2 k h) = _
  exact transpose_apply _ _ _ (ix2 k h) (ix2 h k) (fun b => by match b with | ⟨0, _⟩ => rfl | ⟨1, _⟩ => rfl)

/-- Entry `(h, d)` of window 2's array is `W_proj (d, h)`. -/
theorem projT_apply (c : Dev nD) (h : Fin 4096) (d : Fin 1024) :
    (V m c main_v3 : S4096x1024.Idx → EReal) (ix2 h d)
      = (m ((c : Thread nD τ).loc main_arg2) : S1024x4096.Idx → EReal) (ix2 d h) := by
  rw [V_projT]
  show transpose S4096x1024 [1, 0] (m ((c : Thread nD τ).loc main_arg2) : S1024x4096.Idx → EReal) transposes_S1024x4096_S4096x1024_1_0 (ix2 h d) = _
  exact transpose_apply _ _ _ (ix2 h d) (ix2 d h) (fun b => by match b with | ⟨0, _⟩ => rfl | ⟨1, _⟩ => rfl)

end Cert.ReluSqMlp.Kern

end
-- ==== Proof.Blocks.lean ====
/-
  From blocks to the array.

  The grid has 16 points. Point `t` stages rows `[512 t, 512 t + 512)` of `x` and all of `W_fcᵀ` and `W_projᵀ`, and
  writes back rows `[512 t, 512 t + 512)` of the result. With the output block known at every index
  (`acc4_apply`) and the staged blocks read where the output's rows say, what point `t` writes back is block `t` of
  the specification `Cert.ReluSqMlp.out` of the three launch arrays. The 16 blocks tile the result's 8192 rows — row
  `r` lies in the block of point `r / 512` — so the result array ends holding the specification everywhere.
-/
import proofs.«428644_j58179626991686_3_alg».proof.Proof.Gen.KernelIdeal.Value
import proofs.«428644_j58179626991686_3_alg».proof.Proof.BlockValue
import proofs.«428644_j58179626991686_3_alg».proof.Proof.HostSide

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.ReluSqMlp.Kern

open Cert.KernelIdeal Cert.KernelIdeal.Gen

variable (m : (ℓ : Loc nD τ sig) → Buf (Elt Ideal) ℓ) (ρ : Dev nD → PrngReg)

/-- The printed index maps over the grid: `x`'s window and the result's move down one block of rows per point; the
    two weight windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `512 t + p` of the array. -/
def rowOf (t : Fin cfg0.N) (p : Fin 512) : Fin 8192 :=
  ⟨t.val * 512 + p.val, by have hN : cfg0.N = 16 := N_0; have := t.isLt; omega⟩

/-- The staged block of `x` at point `t`. -/
theorem xblk_apply (c : Dev nD) (t : Fin cfg0.N) (p : Fin 512) (k : Fin 1024) :
    (iblk m c 0 t : S512x1024.Idx → EReal) (ix2 p k) = (V m c main_arg0 : S8192x1024.Idx → EReal) (ix2 (rowOf t p) k) := by
  obtain ⟨e0, e1, -⟩ := idx_facts t
  show (V m c main_arg0 : S8192x1024.Idx → EReal) (((cfg0.win 0).blk t).view.emb (ix2 p k)) = _
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- The staged block of `W_fcᵀ` is the whole array, at every point. -/
theorem fcblk_apply (c : Dev nD) (t : Fin cfg0.N) (k : Fin 1024) (h : Fin 4096) :
    (iblk m c 1 t : S1024x4096.Idx → EReal) (ix2 k h) = (V m c main_v1 : S1024x4096.Idx → EReal) (ix2 k h) := by
  obtain ⟨-, -, e2, e3, -⟩ := idx_facts t
  show (V m c main_v1 : S1024x4096.Idx → EReal) (((cfg0.win 1).blk t).view.emb (ix2 k h)) = _
  refine congrArg _ (funext fun a => Fin.ext ?_)
  match a with
  | ⟨0, _⟩ => show win0_1.index t (0 : Fin 2) * 1024 + 1 * k.val = k.val; rw [e2]; omega
  | ⟨1, _⟩ => show win0_1.index t (1 : Fin 2) * 4096 + 1 * h.val = h.val; rw [e3]; omega

/-- The staged block of `W_projᵀ` is the whole array, at every point. -/
theorem projblk_apply (c : Dev nD) (t : Fin cfg0.N) (h : Fin 4096) (d : Fin 1024) :
    (iblk m c 2 t : S4096x1024.Idx → EReal) (ix2 h d) = (V m c main_v3 : S4096x1024.Idx → EReal) (ix2 h d) := by
  obtain ⟨-, -, -, -, e4, e5, -⟩ := idx_facts t
  show (V m c main_v3 : S4096x1024.Idx → EReal) (((cfg0.win 2).blk t).view.emb (ix2 h d)) = _
  refine congrArg _ (funext fun a => Fin.ext ?_)
  match a with
  | ⟨0, _⟩ => show win0_2.index t (0 : Fin 2) * 4096 + 1 * h.val = h.val; rw [e4]; omega
  | ⟨1, _⟩ => show win0_2.index t (1 : Fin 2) * 1024 + 1 * d.val = d.val; rw [e5]; omega

/-- One block against the specification: if the row block is rows `r p` of `X` and the two weight blocks are the
    transposes of `Wfc` and `Wproj`, the output block at `(p, q)` is the specification at `(r p, q)`. -/
theorem block_eq (X : S8192x1024.Idx → EReal) (Wfc : S4096x1024.Idx → EReal) (Wproj : S1024x4096.Idx → EReal)
    (x0 : Vec Ideal S512x1024 .f32) (x1 : Vec Ideal S1024x4096 .bf16) (x2 : Vec Ideal S4096x1024 .bf16) (r : Fin 512 → Fin 8192)
    (h0 : ∀ p k, x0 (ix2 p k) = X (ix2 (r p) k)) (h1 : ∀ k h, x1 (ix2 k h) = Wfc (ix2 h k))
    (h2 : ∀ h d, x2 (ix2 h d) = Wproj (ix2 d h)) (p : Fin 512) (q : Fin 1024) :
    acc4 x0 x1 x2 (ix2 p q) = out X Wfc Wproj (ix2 (r p) q) := by
  rw [acc4_apply, out_apply]
  refine Finset.sum_congr rfl fun h _ => ?_
  unfold hidBlk hid pre
  simp only [h0, h1, h2]

/-- The result: the specification of the three launch arrays. -/
abbrev result (c : Dev nD) : Buf (Elt Ideal) ((c : Thread nD τ).loc main_v4) :=
  out (m ((c : Thread nD τ).loc main_arg0)) (m ((c : Thread nD τ).loc main_arg1)) (m ((c : Thread nD τ).loc main_arg2))

/-- WHAT POINT `t` WRITES BACK is block `t` of the result. -/
theorem flushed_eq (c : Dev nD) (t : Fin cfg0.N) (hf : (cfg0.win 3).flush t = true) :
    (dats m 0 c).flushed 3 t = ((cfg0.win 3).blk t).view.read (Elt Ideal) (result m c) := by
  rw [Cert.KernelIdeal.Value.flushed3_A, out_eq]
  obtain ⟨-, -, -, -, -, -, e6, e7⟩ := idx_facts t
  funext y
  have he : ((cfg0.win 3).blk t).view.emb y = ix2 (rowOf t (y 0)) (y 1) := funext fun a => Fin.ext (by
    match a with
    | ⟨0, _⟩ => show win0_3.index t (0 : Fin 2) * 512 + 1 * (y 0).val = t.val * 512 + (y 0).val; rw [e6]; omega
    | ⟨1, _⟩ => show win0_3.index t (1 : Fin 2) * 1024 + 1 * (y 1).val = (y 1).val; rw [e7]; omega)
  show acc4 (iblk m c 0 t) (iblk m c 1 t) (iblk m c 2 t) y = result m c (((cfg0.win 3).blk t).view.emb y)
  rw [he]
  exact (congrArg (acc4 (iblk m c 0 t) (iblk m c 1 t) (iblk m c 2 t)) (eq_ix2 y)).trans
    (block_eq (m ((c : Thread nD τ).loc main_arg0)) (m ((c : Thread nD τ).loc main_arg1)) (m ((c : Thread nD τ).loc main_arg2))
      (iblk m c 0 t) (iblk m c 1 t) (iblk m c 2 t) (rowOf t)
      (fun p k => (xblk_apply m c t p k).trans (congrFun (V_main_arg0 m c) _))
      (fun k h => (fcblk_apply m c t k h).trans (fcT_apply m c k h))
      (fun h d => (projblk_apply m c t h d).trans (projT_apply m c h d)) (y 0) (y 1))

/-- An index of the result array is in point `t`'s block iff each coordinate is in the block's range on its axis. -/
theorem mem_blk (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- Every index of the result is in some point's block: row `r` in the block of point `r / 512`. -/
theorem cover (i : S8192x1024.Idx) :
    ∃ t : Fin cfg0.N, (cfg0.win 3).flush t = true ∧ i ∈ ((cfg0.win 3).blk t).view.set := by
  have hN : cfg0.N = 16 := N_0
  have hi0 : (i 0).val < 8192 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e6, ht]; omega
  | ⟨1, _⟩ => show win0_3.index t (1 : Fin 2) * 1024 ≤ (i 1).val ∧ (i 1).val < win0_3.index t (1 : Fin 2) * 1024 + 1024; rw [e7]; omega

/-- THE RESULT ARRAY after the run is the specification of the launch arrays. -/
theorem final (c : Dev nD) : (dats m 0 c).arrAt 3 cfg0.N = result m c :=
  (dats m 0 c).arrAt_eq_of_cover 3 (result m c) (flushed_eq m c) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.ReluSqMlp.Kern

end
-- ==== Proof.lean ====
/-
  `Cert.Claim`: the kernel and its reference compute the same function over the extended reals.

  Both compute, for `x : [8192, 1024]`, `W_fc : [4096, 1024]`, `W_proj : [1024, 4096]`,
    `out (t, d) = ∑ h, (max (∑ k, x (t, k) * W_fc (h, k)) 0)² * W_proj (d, h)`.
  The reference takes the two products whole. The kernel works on 16 blocks of 512 rows; on each it holds the
  transposed weights, and sums the 4096 hidden units in four runs of 1024, each run's product added onto an
  accumulator that starts at zero. Changes of float format do nothing at the exact instance, a product into a zero
  accumulator is the plain sum, and a sum over `Fin 4096` is the sum of its four quarter sums (addition on the
  extended reals is commutative and associative), so the two agree at every index; the inputs' finiteness is never
  used. The three frames are the generated ones (the reference's is its run with the result dropped), and the
  idealization rewrote nothing, so what it must preserve is `True`.

  The modules: `Spec` (the function, and the quarter-sum law), `RefSpec` (the reference is the function), `Body` (what
  one grid point leaves in the output block), `BlockValue` (that block at an index), `HostSide` (the staged weight
  arrays are the transposes), `Blocks` (the blocks tile the result), `LibRowOps` (a matrix product read at an index).
-/
import proofs.«428644_j58179626991686_3_alg».proof.Defs
import proofs.«428644_j58179626991686_3_alg».proof.Proof.Gen.Kernel
import proofs.«428644_j58179626991686_3_alg».proof.Proof.Gen.Kernel.Skeleton
import proofs.«428644_j58179626991686_3_alg».proof.Proof.Gen.Kernel.Launch
import proofs.«428644_j58179626991686_3_alg».proof.Proof.Gen.Kernel.Points
import proofs.«428644_j58179626991686_3_alg».proof.Proof.Gen.Kernel.Frame
import proofs.«428644_j58179626991686_3_alg».proof.Proof.Gen.KernelIdeal
import proofs.«428644_j58179626991686_3_alg».proof.Proof.Gen.KernelIdeal.Skeleton
import proofs.«428644_j58179626991686_3_alg».proof.Proof.Gen.KernelIdeal.Launch
import proofs.«428644_j58179626991686_3_alg».proof.Proof.Gen.KernelIdeal.Points
import proofs.«428644_j58179626991686_3_alg».proof.Proof.Gen.KernelIdeal.Frame
import proofs.«428644_j58179626991686_3_alg».proof.Proof.Gen.ReferenceIdeal
import proofs.«428644_j58179626991686_3_alg».proof.Proof.Gen.Pre_finite_inputs
import proofs.«428644_j58179626991686_3_alg».proof.Proof.Gen.KernelIdeal.Value
import proofs.«428644_j58179626991686_3_alg».proof.Proof.Gen.ReferenceIdeal.Run
import proofs.«428644_j58179626991686_3_alg».proof.Proof.Gen.ReferenceIdeal.Read
import proofs.«428644_j58179626991686_3_alg».proof.Proof.RefSpec
import proofs.«428644_j58179626991686_3_alg».proof.Proof.Blocks
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does its reading at the exact instance. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array ends at the specification of its
    arguments (`Kern.run`) and the reference's at the specification of its own (`Ref.result_eq`): the same array. -/
theorem algebraic : Cert.algebraic_KernelIdeal_ReferenceIdeal := by
  intro m ρ m' ρ' _ hagree
  refine ⟨fun c => Cert.ReluSqMlp.Kern.result m c, Cert.ReluSqMlp.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReluSqMlp.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
